-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x768 : Shape := ⟨2, ![1024, 768]⟩
abbrev S16384x768 : Shape := ⟨2, ![16384, 768]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S16384x768 : S_.BroadcastsInDim S16384x768 (![] : Fin 0 → Fin S16384x768.rank)
  reducesTo_S16384x768_S_d0_1 : S16384x768.ReducesTo [0, 1] S_

variable [Facts]

def fn {F : FTy → Type} [FloatOps F] (main_arg0 : FVec F S8192x1024 .f32) (main_arg1 : FVec F S1024x768 .f32) (main_arg2 : FVec F S16384x768 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x768 .f32 := Host.absf main_arg1
  let main_cst_0 : FVec F S_ .f32 := constant S_ .f32 0x7F800000#32
  let main_v5 : FVec F S1024x768 .f32 := broadcastInDim S1024x768 ![] bcast_S_S1024x768 main_cst_0
  let main_v6 : IVec S1024x768 1 := cmpf .olt main_v4 main_v5
  let main_c_1 : IVec S_ 1 := constantI S_ 1 1#1
  let main_v7 : IVec S_ 1 := (fun x v => Host.reduce IntOp.andi x v reducesTo_S1024x768_S_d0_1 h_S_) main_v6 main_c_1
  let main_v8 : IVec S_ 1 := andi main_v3 main_v7
  let main_v9 : FVec F S16384x768 .f32 := Host.absf main_arg2
  let main_cst_2 : FVec F S_ .f32 := constant S_ .f32 0x7F800000#32
  let main_v10 : FVec F S16384x768 .f32 := broadcastInDim S16384x768 ![] bcast_S_S16384x768 main_cst_2
  let main_v11 : IVec S16384x768 1 := cmpf .olt main_v9 main_v10
  let main_c_3 : IVec S_ 1 := constantI S_ 1 1#1
  let main_v12 : IVec S_ 1 := (fun x v => Host.reduce IntOp.andi x v reducesTo_S16384x768_S_d0_1 h_S_) main_v11 main_c_3
  let main_v13 : IVec S_ 1 := andi main_v8 main_v12
  main_v13
-- ==== Kernel.lean ====
abbrev S8192x1024 : Shape := ⟨2, ![8192, 1024]⟩
abbrev S1024x768 : Shape := ⟨2, ![1024, 768]⟩
abbrev S16384x768 : Shape := ⟨2, ![16384, 768]⟩
abbrev S8192x768 : Shape := ⟨2, ![8192, 768]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S_ : Shape := ⟨0, ![]⟩
abbrev S16384 : Shape := ⟨1, ![16384]⟩
abbrev S1x16384 : Shape := ⟨2, ![1, 16384]⟩
abbrev S8192x16384 : Shape := ⟨2, ![8192, 16384]⟩
abbrev S1x1024 : Shape := ⟨2, ![1, 1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S16384x768, .f32⟩
  | .hbm, ⟨3, _⟩ => ⟨S8192x768, .bf16⟩
  | .hbm, ⟨4, _⟩ => ⟨S8192x1, .f32⟩
  | .hbm, ⟨5, _⟩ => ⟨S16384x768, .f32⟩
  | .hbm, ⟨6, _⟩ => ⟨S_, .f32⟩
  | .hbm, ⟨7, _⟩ => ⟨S16384, .f32⟩
  | .hbm, ⟨8, _⟩ => ⟨S1x16384, .f32⟩
  | .hbm, ⟨9, _⟩ => ⟨S8192x16384, .f32⟩
  | .local _ .vmem, ⟨0, _⟩ => ⟨S1024x1024, .f32⟩
  | .local _ .vmem, ⟨1, _⟩ => ⟨S1024x1024, .f32⟩
  | .local _ .vmem, ⟨2, _⟩ => ⟨S1024x768, .f32⟩
  | .local _ .vmem, ⟨3, _⟩ => ⟨S1024x768, .bf16⟩
  | .local _ .vmem, ⟨4, _⟩ => ⟨S1024x768, .bf16⟩
  | .local _ .vmem, ⟨5, _⟩ => ⟨S1024x1, .f32⟩
  | .local _ .vmem, ⟨6, _⟩ => ⟨S1024x1, .f32⟩
  | .local _ .vmem, ⟨7, _⟩ => ⟨S1024x768, .bf16⟩
  | .local _ .vmem, ⟨8, _⟩ => ⟨S1024x768, .bf16⟩
  | .local _ .vmem, ⟨9, _⟩ => ⟨S1024x768, .f32⟩
  | .local _ .vmem, ⟨10, _⟩ => ⟨S1024x768, .f32⟩
  | .local _ .vmem, ⟨11, _⟩ => ⟨S1024x1, .f32⟩
  | .local _ .vmem, ⟨12, _⟩ => ⟨S1024x1, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  packedbf16_S1024x768_S1024x768_0_0 : (Rect.unit (s := S1024x768) ![0, 0] S1024x768.size inb_S1024x768_S1024x768_0_0).PackedRows (EltTy.packing .bf16)
  reduces_S1024x768_S1024 : S1024x768.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  reducesTo_S16384x768_S16384_d1 : S16384x768.ReducesTo [1] S16384
  h_S_ : 0 < S_.numel
  shapeCasts_S16384_S1x16384 : S16384.ShapeCasts S1x16384
  shapeCasts_S1024x768_S1024x768 : S1024x768.ShapeCasts S1024x768
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  dot_S1024x1024_S1024x768_S1024x768_1_0_0_1_n_n_wf : DotDims.WF S1024x1024 S1024x768 S1024x768 [1] [0] [0] [1] [] []
  dot_S1024x768_S1024x768_S1024x1024_1_1_0_0_n_n_wf : DotDims.WF S1024x768 S1024x768 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S1024x768.size a
  hwx0_1 : ∀ i : grid0.Coords, EltTy.bits .f32 = 32 ∨ (Rect.block (s := S1024x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S8192x768.size a
  hwx0_2 : ∀ i : grid0.Coords, EltTy.bits .bf16 = 32 ∨ (Rect.block (s := S8192x768) S1024x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S8192x768.size a
  hwx1_0 : ∀ i : grid1.Coords, EltTy.bits .bf16 = 32 ∨ (Rect.block (s := S8192x768) S1024x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x768.size a ≤ S16384x768.size a
  hwx1_1 : ∀ i : grid1.Coords, EltTy.bits .f32 = 32 ∨ (Rect.block (s := S16384x768) S1024x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x16384.size a
  hwx1_3 : ∀ i : grid1.Coords, EltTy.bits .f32 = 32 ∨ (Rect.block (s := S1x16384) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x16384.size a
  hwx1_4 : ∀ i : grid1.Coords, EltTy.bits .f32 = 32 ∨ (Rect.block (s := S8192x16384) S1024x1024.size (cc1_transform_4 i) (hinb1_4 i)).WholeWords (EltTy.packing .f32)

variable [Facts₀]

def dot_S1024x1024_S1024x768_S1024x768_1_0_0_1_n_n : DotDims S1024x1024 S1024x768 S1024x768 where
  lhsContracting := [1]
  rhsContracting := [0]
  lhsNonContracting := [0]
  rhsNonContracting := [1]
  lhsBatch := []
  rhsBatch := []
  wf := dot_S1024x1024_S1024x768_S1024x768_1_0_0_1_n_n_wf
def dot_S1024x768_S1024x768_S1024x1024_1_1_0_0_n_n : DotDims S1024x768 S1024x768 S1024x1024 where
  lhsContracting := [1]
  rhsContracting := [1]
  lhsNonContracting := [0]
  rhsNonContracting := [0]
  lhsBatch := []
  rhsBatch := []
  wf := dot_S1024x768_S1024x768_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S1024x768 : Shape := ⟨2, ![1024, 768]⟩
abbrev S16384x768 : Shape := ⟨2, ![16384, 768]⟩
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S16384 : Shape := ⟨1, ![16384]⟩
abbrev S768x16384 : Shape := ⟨2, ![768, 16384]⟩
abbrev S8192x16384 : Shape := ⟨2, ![8192, 16384]⟩
abbrev S1x16384 : Shape := ⟨2, ![1, 16384]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S16384x768, .f32⟩
  | .hbm, ⟨3, _⟩ => ⟨S8192x768, .f32⟩
  | .hbm, ⟨4, _⟩ => ⟨S8192x768, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S16384x768, .f32⟩
  | .hbm, ⟨9, _⟩ => ⟨S_, .f32⟩
  | .hbm, ⟨10, _⟩ => ⟨S16384, .f32⟩
  | .hbm, ⟨11, _⟩ => ⟨S768x16384, .f32⟩
  | .hbm, ⟨12, _⟩ => ⟨S8192x16384, .f32⟩
  | .hbm, ⟨13, _⟩ => ⟨S1x16384, .f32⟩
  | .hbm, ⟨14, _⟩ => ⟨S8192x16384, .f32⟩
  | .hbm, ⟨15, _⟩ => ⟨S8192x16384, .f32⟩
  | .hbm, ⟨16, _⟩ => ⟨S8192x16384, .f32⟩
  | .hbm, ⟨17, _⟩ => ⟨S_, .f32⟩
  | .hbm, ⟨18, _⟩ => ⟨S8192x16384, .f32⟩
  | .hbm, ⟨19, _⟩ => ⟨S8192x16384, .f32⟩
  | .hbm, ⟨20, _⟩ => ⟨S8192x16384, .f32⟩
  | .hbm, ⟨21, _⟩ => ⟨S8192x16384, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  reducesTo_S16384x768_S16384_d1 : S16384x768.ReducesTo [1] S16384
  transposes_S16384x768_S768x16384_1_0 : S16384x768.Transposes [1, 0] S768x16384
  bcast_S16384_S1x16384_1 : S16384.BroadcastsInDim S1x16384 (![1] : Fin 1 → Fin S1x16384.rank)
  bcast_S8192x1_S8192x16384_0_1 : S8192x1.BroadcastsInDim S8192x16384 (![0, 1] : Fin 2 → Fin S8192x16384.rank)
  bcast_S1x16384_S8192x16384_0_1 : S1x16384.BroadcastsInDim S8192x16384 (![0, 1] : Fin 2 → Fin S8192x16384.rank)
  bcast_S_S8192x16384 : S_.BroadcastsInDim S8192x16384 (![] : Fin 0 → Fin S8192x16384.rank)
  dot_S8192x1024_S1024x768_S8192x768_1_0_0_1_n_n_wf : DotDims.WF S8192x1024 S1024x768 S8192x768 [1] [0] [0] [1] [] []
  dot_S8192x768_S768x16384_S8192x16384_1_0_0_1_n_n_wf : DotDims.WF S8192x768 S768x16384 S8192x16384 [1] [0] [0] [1] [] []

variable [Facts₀]

def dot_S8192x1024_S1024x768_S8192x768_1_0_0_1_n_n : DotDims S8192x1024 S1024x768 S8192x768 where
  lhsContracting := [1]
  rhsContracting := [0]
  lhsNonContracting := [0]
  rhsNonContracting := [1]
  lhsBatch := []
  rhsBatch := []
  wf := dot_S8192x1024_S1024x768_S8192x768_1_0_0_1_n_n_wf
def dot_S8192x768_S768x16384_S8192x16384_1_0_0_1_n_n : DotDims S8192x768 S768x16384 S8192x16384 where
  lhsContracting := [1]
  rhsContracting := [0]
  lhsNonContracting := [0]
  rhsNonContracting := [1]
  lhsBatch := []
  rhsBatch := []
  wf := dot_S8192x768_S768x16384_S8192x16384_1_0_0_1_n_n_wf

class Facts : Prop extends Facts₀ where

variable [Facts]
-- ==== Proof.LibKeepdims.lean ====
/-
  Keepdims columns read at an index given by coordinates.  A sum over the last axis kept as a unit axis makes
  an `[a]` vector into an `[a, 1]` column, and a column is broadcast along its unit axis to `[a, b]`.
  Both are read here at an index written with `ix2`: the cast keeps row-major positions (position `i` of
  the vector is position `i · 1 + 0` of the column), and a broadcast reads coordinate `0` on the operand's
  unit axis and the result's own coordinate elsewhere.
-/
import Idealize.ShloMosaic.Lib.ValueLayout

namespace Cert.LibKeepdims

open Idealize.ShloMosaic Idealize.ShloMosaic.ValueIdx

variable {α : Type}

/-- An `[a]` vector cast to an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.EmbedPay.lean ====
/-
  The first stage's body at an index.  At the extended reals a change of float format is the identity, so the
  stored projection block at (r, d) is the matrix product of the loaded block of `x` (1024 rows, all 1024
  columns) with the whole of `W`: the sum over k of x_blk[r, k] · W[k, d]; and the stored column at (r, 0)
  is the sum over d of that entry squared.
-/
import proofs.«181549_j7490422964419_1_alg».proof.Proof.Gen.KernelIdeal.Skeleton
import proofs.«181549_j7490422964419_1_alg».proof.Proof.LibKeepdims
import Idealize.ShloMosaic.Lib.ValueIdx
import Idealize.ShloMosaic.Lib.Pipeline.Value
import Idealize.ShloMosaic.PureOps.Ideal.Laws

noncomputable section

namespace Cert.KernelIdeal.EmbedValue

open Cert.KernelIdeal Cert.KernelIdeal.Gen Idealize.ShloMosaic Idealize.ShloMosaic.ValueIdx Cert.LibKeepdims

/-! ## The product's operand indices: rows of the left operand, columns of the right -/

theorem lhs_nn_0 (i : S1024x768.Idx) (q : dot_S1024x1024_S1024x768_S1024x768_1_0_0_1_n_n.contr.Idx) :
    (dot_S1024x1024_S1024x768_S1024x768_1_0_0_1_n_n.lhsIdx i q 0).val = (i 0).val := by
  unfold DotDims.lhsIdx
  rw [dif_neg (show ¬(0 : Fin S1024x1024.rank) ∈ dot_S1024x1024_S1024x768_S1024x768_1_0_0_1_n_n.lhsBatch by decide), dif_pos (show (0 : Fin S1024x1024.rank) ∈ dot_S1024x1024_S1024x768_S1024x768_1_0_0_1_n_n.lhsNonContracting by decide)]
  rfl
theorem lhs_nn_1 (i : S1024x768.Idx) (q : dot_S1024x1024_S1024x768_S1024x768_1_0_0_1_n_n.contr.Idx) :
    (dot_S1024x1024_S1024x768_S1024x768_1_0_0_1_n_n.lhsIdx i q 1).val = (q ⟨0, by decide⟩).val :=
  dot_S1024x1024_S1024x768_S1024x768_1_0_0_1_n_n.lhsIdx_val_of_single rfl i q
theorem rhs_nn_0 (i : S1024x768.Idx) (q : dot_S1024x1024_S1024x768_S1024x768_1_0_0_1_n_n.contr.Idx) :
    (dot_S1024x1024_S1024x768_S1024x768_1_0_0_1_n_n.rhsIdx i q 0).val = (q ⟨0, by decide⟩).val :=
  dot_S1024x1024_S1024x768_S1024x768_1_0_0_1_n_n.rhsIdx_val_of_single rfl i q
theorem rhs_nn_1 (i : S1024x768.Idx) (q : dot_S1024x1024_S1024x768_S1024x768_1_0_0_1_n_n.contr.Idx) :
    (dot_S1024x1024_S1024x768_S1024x768_1_0_0_1_n_n.rhsIdx i q 1).val = (i 1).val := by
  unfold DotDims.rhsIdx
  rw [dif_neg (show ¬(1 : Fin S1024x768.rank) ∈ dot_S1024x1024_S1024x768_S1024x768_1_0_0_1_n_n.rhsBatch by decide), dif_pos (show (1 : Fin S1024x768.rank) ∈ dot_S1024x1024_S1024x768_S1024x768_1_0_0_1_n_n.rhsNonContracting by decide)]
  rfl

/-- The block product into the zero accumulator, at (r, d): row `r` of the left block against column `d` of the right. -/
theorem prod_apply (a : FVec Ideal S1024x1024 .bf16) (b : FVec Ideal S1024x768 .bf16) (r : Fin 1024) (d : Fin 768) :
    matmul (F := Ideal) dot_S1024x1024_S1024x768_S1024x768_1_0_0_1_n_n none a b (constant (F := Ideal) S1024x768 .f32 0x00000000#32) (ix2 r d)
      = ∑ k : Fin 1024, a (ix2 r k) * b (ix2 k d) := by
  simp only [matmul]
  rw [Ideal.matmul_constant_zero_apply, ← Equiv.sum_comp (contrEquiv1 dot_S1024x1024_S1024x768_S1024x768_1_0_0_1_n_n 1024 rfl rfl).symm]
  refine Finset.sum_congr rfl fun k _ => ?_
  have hk := contrEquiv1_symm_val dot_S1024x1024_S1024x768_S1024x768_1_0_0_1_n_n 1024 rfl rfl k
  have el : dot_S1024x1024_S1024x768_S1024x768_1_0_0_1_n_n.lhsIdx (ix2 r d) ((contrEquiv1 dot_S1024x1024_S1024x768_S1024x768_1_0_0_1_n_n 1024 rfl rfl).symm k) = ix2 r k := funext fun a => Fin.ext (by
    match a with
    | ⟨0, _⟩ => exact lhs_nn_0 _ _
    | ⟨1, _⟩ => exact (lhs_nn_1 _ _).trans hk)
  have er : dot_S1024x1024_S1024x768_S1024x768_1_0_0_1_n_n.rhsIdx (ix2 r d) ((contrEquiv1 dot_S1024x1024_S1024x768_S1024x768_1_0_0_1_n_n 1024 rfl rfl).symm k) = ix2 k d := funext fun a => Fin.ext (by
    match a with
    | ⟨0, _⟩ => exact (rhs_nn_0 _ _).trans hk
    | ⟨1, _⟩ => exact rhs_nn_1 _ _)
  rw [el, er]

/-- The product the body forms from its two loaded blocks, at (r, d). -/
theorem pay1_apply (v0 : FVec Ideal S1024x1024 .f32) (v2 : FVec Ideal S1024x768 .f32) (r : Fin 1024) (d : Fin 768) :
    k0_pay1 (F := Ideal) v0 v2 (ix2 r d) = ∑ k : Fin 1024, v0 (ix2 r k) * v2 (ix2 k d) := by
  unfold k0_pay1
  exact prod_apply _ _ r d

/-- The stored projection block is that product. -/
theorem pay2_apply (v0 : FVec Ideal S1024x1024 .f32) (v2 : FVec Ideal S1024x768 .f32) (r : Fin 1024) (d : Fin 768) :
    k0_pay2 (F := Ideal) v0 v2 (ix2 r d) = ∑ k : Fin 1024, v0 (ix2 r k) * v2 (ix2 k d) := by
  unfold k0_pay2
  exact pay1_apply v0 v2 r d

/-- The stored column at row `r` is the sum over the 768 columns of the squared product entry. -/
theorem pay3_apply (v0 : FVec Ideal S1024x1024 .f32) (v2 : FVec Ideal S1024x768 .f32) (r : Fin 1024) :
    k0_pay3 (F := Ideal) v0 v2 (ix2 r (0 : Fin 1))
      = ∑ d : Fin 768, (∑ k : Fin 1024, v0 (ix2 r k) * v2 (ix2 k d)) * (∑ k : Fin 1024, v0 (ix2 r k) * v2 (ix2 k d)) := by
  unfold k0_pay3
  refine (shapeCast_a_a1_apply _ _ r 0).trans ?_
  refine (Ideal.multiReduction_add_single _ 0x00000000#32 reduces_S1024x768_S1024 _ _ (ix1 r)).trans ?_
  refine Finset.sum_congr rfl fun (d : Fin 768) _ => ?_
  have e : reduces_S1024x768_S1024.lift (ix1 r) d = ix2 r d :=
    funext fun a => Fin.ext (by match a with | ⟨0, _⟩ => rfl | ⟨1, _⟩ => rfl)
  show k0_pay1 (F := Ideal) v0 v2 (reduces_S1024x768_S1024.lift (ix1 r) d)
      * k0_pay1 (F := Ideal) v0 v2 (reduces_S1024x768_S1024.lift (ix1 r) d) = _
  rw [e, pay1_apply]

end Cert.KernelIdeal.EmbedValue

end
-- ==== Proof.Spec.lean ====
/-
  The mathematics both programs compute, stated once over the three argument arrays read as extended reals:
  the projection `e = x · W` (a row of `x` against a column of `W`), each projected row's squared length,
  each centroid's squared length, the inner products of projected rows with centroids, and from these the
  negated squared distance  -((|e_i|² + |c_j|²) - 2 · ⟨e_i, c_j⟩).  Every sum is a finite sum over a `Fin`;
  no law beyond the definitions is used, so nothing here needs the inputs finite.
-/
import Idealize.ShloMosaic.PureOps.Ideal
import Idealize.ShloMosaic.PureOps.Ideal.Laws
import Idealize.ShloMosaic.Lib.ValueIdx

noncomputable section

namespace Cert.Centroid

open Idealize.ShloMosaic Idealize.ShloMosaic.ValueIdx

/-- Entry (i, d) of the projection `x · W`: row `i` of `x` against column `d` of `W`. -/
def proj (x : (⟨2, ![8192, 1024]⟩ : Shape).Idx → EReal) (w : (⟨2, ![1024, 768]⟩ : Shape).Idx → EReal)
    (i : Fin 8192) (d : Fin 768) : EReal :=
  ∑ k : Fin 1024, x (ix2 i k) * w (ix2 k d)

/-- The squared length of projected row `i`. -/
def projSq (x : (⟨2, ![8192, 1024]⟩ : Shape).Idx → EReal) (w : (⟨2, ![1024, 768]⟩ : Shape).Idx → EReal)
    (i : Fin 8192) : EReal :=
  ∑ d : Fin 768, proj x w i d * proj x w i d

/-- The squared length of centroid `j`. -/
def cenSq (cn : (⟨2, ![16384, 768]⟩ : Shape).Idx → EReal) (j : Fin 16384) : EReal :=
  ∑ d : Fin 768, cn (ix2 j d) * cn (ix2 j d)

/-- The inner product of projected row `i` with centroid `j`. -/
def cross (x : (⟨2, ![8192, 1024]⟩ : Shape).Idx → EReal) (w : (⟨2, ![1024, 768]⟩ : Shape).Idx → EReal)
    (cn : (⟨2, ![16384, 768]⟩ : Shape).Idx → EReal) (i : Fin 8192) (j : Fin 16384) : EReal :=
  ∑ d : Fin 768, proj x w i d * cn (ix2 j d)

/-- The negated squared distance from projected row `i` to centroid `j`, in the expanded form
    -((|e_i|² + |c_j|²) - 2 · ⟨e_i, c_j⟩); the factor two is kept as its binary32 word. -/
def negDistAt (x : (⟨2, ![8192, 1024]⟩ : Shape).Idx → EReal) (w : (⟨2, ![1024, 768]⟩ : Shape).Idx → EReal)
    (cn : (⟨2, ![16384, 768]⟩ : Shape).Idx → EReal) (i : Fin 8192) (j : Fin 16384) : EReal :=
  -((projSq x w i + cenSq cn j) - Ideal.ofBits .f32 0x40000000#32 * cross x w cn i j)

/-- The whole result array. -/
def negDist (x : (⟨2, ![8192, 1024]⟩ : Shape).Idx → EReal) (w : (⟨2, ![1024, 768]⟩ : Shape).Idx → EReal)
    (cn : (⟨2, ![16384, 768]⟩ : Shape).Idx → EReal) : (⟨2, ![8192, 16384]⟩ : Shape).Idx → EReal :=
  fun p => negDistAt x w cn (p 0) (p 1)

/-- The projection as an array. -/
def projArr (x : (⟨2, ![8192, 1024]⟩ : Shape).Idx → EReal) (w : (⟨2, ![1024, 768]⟩ : Shape).Idx → EReal) :
    (⟨2, ![8192, 768]⟩ : Shape).Idx → EReal :=
  fun p => proj x w (p 0) (p 1)

/-- The projected rows' squared lengths as a column. -/
def projSqArr (x : (⟨2, ![8192, 1024]⟩ : Shape).Idx → EReal) (w : (⟨2, ![1024, 768]⟩ : Shape).Idx → EReal) :
    (⟨2, ![8192, 1]⟩ : Shape).Idx → EReal :=
  fun p => projSq x w (p 0)

/-- The centroids' squared lengths as a row. -/
def cenSqArr (cn : (⟨2, ![16384, 768]⟩ : Shape).Idx → EReal) : (⟨2, ![1, 16384]⟩ : Shape).Idx → EReal :=
  fun p => cenSq cn (p 1)

/-- What one grid point of the distance stage computes at (i, j) from whole arrays `e`, `cn`, `s`, `t`:
    0 - ((s_i + t_j) - 2 · Σ_d e_{i d} · c_{j d}), the zero and the two as binary32 words. -/
def distOf (e : (⟨2, ![8192, 768]⟩ : Shape).Idx → EReal) (cn : (⟨2, ![16384, 768]⟩ : Shape).Idx → EReal)
    (s : (⟨2, ![8192, 1]⟩ : Shape).Idx → EReal) (t : (⟨2, ![1, 16384]⟩ : Shape).Idx → EReal) :
    (⟨2, ![8192, 16384]⟩ : Shape).Idx → EReal :=
  fun p => Ideal.ofBits .f32 0x00000000#32
    - ((s (ix2 (p 0) 0) + t (ix2 0 (p 1))) - Ideal.ofBits .f32 0x40000000#32 * ∑ d : Fin 768, e (ix2 (p 0) d) * cn (ix2 (p 1) d))

/-- With the projection, its rows' squared lengths and the centroids' squared lengths put in, the distance
    stage's array is the negated squared distance: `0 - y = -y` on the extended reals. -/
theorem distOf_spec (x : (⟨2, ![8192, 1024]⟩ : Shape).Idx → EReal) (w : (⟨2, ![1024, 768]⟩ : Shape).Idx → EReal)
    (cn : (⟨2, ![16384, 768]⟩ : Shape).Idx → EReal) :
    distOf (projArr x w) cn (projSqArr x w) (cenSqArr cn) = negDist x w cn := by
  funext p
  simp only [distOf, negDist, negDistAt, projArr, projSqArr, cenSqArr, cross, Ideal.ofBits_zero_f32, zero_sub]

end Cert.Centroid

end
-- ==== Proof.EmbedArr.lean ====
/-
  The first stage's two output arrays as functions of the arrays the stage finds.  Grid point `a` reads rows
  1024·a … of `x` (all 1024 columns) and the whole of `W`, and stores rows 1024·a … of the projection and of
  the column of squared row lengths.  What it stores at row `r` of its blocks is the projection's row
  1024·a + r and that row's squared length; the 8 blocks tile each output.
-/
import proofs.«181549_j7490422964419_1_alg».proof.Proof.Gen.KernelIdeal.Frame
import proofs.«181549_j7490422964419_1_alg».proof.Proof.EmbedPay
import proofs.«181549_j7490422964419_1_alg».proof.Proof.Spec

set_option maxRecDepth 16384

noncomputable section

namespace Cert.KernelIdeal.EmbedValue

open Cert.KernelIdeal Cert.KernelIdeal.Gen Idealize.ShloMosaic Idealize.ShloMosaic.TcCoe Idealize.ShloMosaic.ValueIdx
open Idealize.SL.Sem Cert.Centroid
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The two arrays the stage reads, as it finds them, each at its literal type. -/
abbrev xArr (c : Dev nD) : FVec Ideal S8192x1024 .f32 := V c main_arg0
abbrev wArr (c : Dev nD) : FVec Ideal S1024x768 .f32 := V c main_arg1

/-- The printed index maps, decided over the 8 grid points. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0
    ∧ win0_3.index t (0 : Fin 2) = win0_2.index t (0 : Fin 2) ∧ win0_3.index t (1 : Fin 2) = 0
    ∧ win0_2.index t (0 : Fin 2) ≤ 7 :=
  (by decide +kernel : ∀ t : Fin grid0.N, _)

/-- Every block of either output is some grid point's. -/
theorem idx_onto : ∀ q0 : Fin 8, ∃ t : Fin cfg0.N, win0_2.index t = ![q0.val, 0] ∧ win0_3.index t = ![q0.val, 0] :=
  (by decide +kernel : ∀ q0 : Fin 8, ∃ t : Fin grid0.N, win0_2.index t = ![q0.val, 0] ∧ win0_3.index t = ![q0.val, 0])

/-- The whole of `W` is every point's block of it. -/
theorem wblk (c : Dev nD) (t : Fin cfg0.N) (k : Fin 1024) (d : Fin 768) :
    iblk0 V c 1 t (ix2 k d) = wArr V c (ix2 k d) := by
  obtain ⟨e0, e1, e2, e3, e4, e5, e6, b0⟩ := idx_facts t
  have hk : k.val < 1024 := k.isLt
  have hd : d.val < 768 := d.isLt
  show V c main_arg1 (((cfg0.win 1).blk t).view.emb (ix2 k d)) = V c main_arg1 _
  refine congrArg (V c main_arg1) (funext fun a => Fin.ext ?_)
  match a with
  | ⟨0, _⟩ => show win0_1.index t (0 : Fin 2) * 1024 + 1 * k.val = k.val; omega
  | ⟨1, _⟩ => show win0_1.index t (1 : Fin 2) * 768 + 1 * d.val = d.val; omega

/-- Row `r` of point `t`'s block of `x` is row 1024·a + r of `x`. -/
theorem xblk (c : Dev nD) (t : Fin cfg0.N) (r k : Fin 1024) (h : win0_2.index t (0 : Fin 2) * 1024 + r.val < 8192) :
    iblk0 V c 0 t (ix2 r k) = xArr V c (ix2 (⟨win0_2.index t (0 : Fin 2) * 1024 + r.val, h⟩ : Fin 8192) k) := by
  obtain ⟨e0, e1, e2, e3, e4, e5, e6, b0⟩ := idx_facts t
  have hr : r.val < 1024 := r.isLt
  have hk : k.val < 1024 := k.isLt
  show V c main_arg0 (((cfg0.win 0).blk t).view.emb (ix2 r k)) = V c main_arg0 _
  refine congrArg (V c main_arg0) (funext fun a => Fin.ext ?_)
  match a with
  | ⟨0, _⟩ => show win0_0.index t (0 : Fin 2) * 1024 + 1 * r.val = win0_2.index t (0 : Fin 2) * 1024 + r.val; omega
  | ⟨1, _⟩ => show win0_0.index t (1 : Fin 2) * 1024 + 1 * k.val = k.val; omega

/-! ## The projection -/

/-- What grid point `t` writes back to the projection is block `t` of `x · W`. -/
theorem flushed2_eq (c : Dev nD) (t : Fin cfg0.N) :
    (dat0 (F := Ideal) V c).flushed 2 t
      = ((cfg0.win 2).blk t).view.read (Elt Ideal) (projArr (xArr V c) (wArr V c)) := by
  show (cfg0.win 2).cut (grid0.coords t) ((dat0 (F := Ideal) V c).after 2 t) = _
  rw [after0_2]
  unfold out0_2
  rw [View.canon_unit_zero hz]
  simp only [View.ld_unit_zero (S := S1024x1024) hz, View.ld_unit_zero (S := S1024x768) hz]
  obtain ⟨e0, e1, e2, e3, e4, e5, e6, b0⟩ := idx_facts t
  funext j
  obtain ⟨r, d, rfl⟩ : ∃ (r : Fin 1024) (d : Fin 768), j = ix2 r d := ⟨j 0, j 1, eq_ix2 j⟩
  have hr : r.val < 1024 := r.isLt
  have hd : d.val < 768 := d.isLt
  have hi : win0_2.index t (0 : Fin 2) * 1024 + r.val < 8192 := by omega
  have hP : ((cfg0.win 2).blk t).view.emb (ix2 r d)
      = ix2 (⟨win0_2.index t (0 : Fin 2) * 1024 + r.val, hi⟩ : Fin 8192) d :=
    funext fun a => Fin.ext (by
      match a with
      | ⟨0, _⟩ => show win0_2.index t (0 : Fin 2) * 1024 + 1 * r.val = win0_2.index t (0 : Fin 2) * 1024 + r.val; omega
      | ⟨1, _⟩ => show win0_2.index t (1 : Fin 2) * 768 + 1 * d.val = d.val; omega)
  show _ = projArr (xArr V c) (wArr V c) (((cfg0.win 2).blk t).view.emb (ix2 r d))
  rw [hP]
  refine (pay2_apply (iblk0 V c 0 t) (iblk0 V c 1 t) r d).trans ?_
  simp only [xblk V c t r _ hi, wblk V c t]
  rfl

theorem mem_blk2 (t : Fin cfg0.N) (i : S8192x768.Idx) :
    i ∈ ((cfg0.win 2).blk t).view.set ↔ ∀ a : Fin 2, win0_2.index t a * S1024x768.size a ≤ (i a).val ∧ (i a).val < win0_2.index t a * S1024x768.size a + S1024x768.size a := by
  show i ∈ ((View.whole main_v0_0).slice (win0_2.rect t)).set ↔ _
  rw [View.set_slice_whole, Rect.mem_set_unit]
  exact Iff.rfl

theorem cover2 (i : S8192x768.Idx) : ∃ t : Fin cfg0.N, (cfg0.win 2).flush t = true ∧ i ∈ ((cfg0.win 2).blk t).view.set := by
  have hi0 : (i 0).val < 8192 := (i 0).isLt
  have hi1 : (i 1).val < 768 := (i 1).isLt
  obtain ⟨t, ht, -⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk2]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 768 ≤ (i 1).val ∧ (i 1).val < win0_2.index t (1 : Fin 2) * 768 + 768; omega

/-- The projection array after the stage. -/
theorem final2 (c : Dev nD) : (dat0 (F := Ideal) V c).arrAt 2 cfg0.N = projArr (xArr V c) (wArr V c) :=
  (dat0 (F := Ideal) V c).arrAt_eq_of_cover 2 _ (fun t _ => flushed2_eq V c t) cover2

/-! ## The squared row lengths -/

/-- What grid point `t` writes back to the column is block `t` of the projection's squared row lengths. -/
theorem flushed3_eq (c : Dev nD) (t : Fin cfg0.N) :
    (dat0 (F := Ideal) V c).flushed 3 t
      = ((cfg0.win 3).blk t).view.read (Elt Ideal) (projSqArr (xArr V c) (wArr V c)) := by
  show (cfg0.win 3).cut (grid0.coords t) ((dat0 (F := Ideal) V c).after 3 t) = _
  rw [after0_3]
  unfold out0_3
  rw [View.canon_unit_zero hz]
  simp only [View.ld_unit_zero (S := S1024x1024) hz, View.ld_unit_zero (S := S1024x768) hz]
  obtain ⟨e0, e1, e2, e3, e4, e5, e6, b0⟩ := idx_facts t
  funext j
  obtain ⟨r, u, rfl⟩ : ∃ (r : Fin 1024) (u : Fin 1), j = ix2 r u := ⟨j 0, j 1, eq_ix2 j⟩
  obtain rfl : u = 0 := Subsingleton.elim _ _
  have hr : r.val < 1024 := r.isLt
  have hi : win0_2.index t (0 : Fin 2) * 1024 + r.val < 8192 := by omega
  have hP : ((cfg0.win 3).blk t).view.emb (ix2 r (0 : Fin 1))
      = ix2 (⟨win0_2.index t (0 : Fin 2) * 1024 + r.val, hi⟩ : Fin 8192) (0 : Fin 1) :=
    funext fun a => Fin.ext (by
      match a with
      | ⟨0, _⟩ => show win0_3.index t (0 : Fin 2) * 1024 + 1 * r.val = win0_2.index t (0 : Fin 2) * 1024 + r.val; omega
      | ⟨1, _⟩ => show win0_3.index t (1 : Fin 2) * 1 + 1 * 0 = 0; omega)
  show _ = projSqArr (xArr V c) (wArr V c) (((cfg0.win 3).blk t).view.emb (ix2 r (0 : Fin 1)))
  rw [hP]
  refine (pay3_apply (iblk0 V c 0 t) (iblk0 V c 1 t) r).trans ?_
  simp only [xblk V c t r _ hi, wblk V c t]
  rfl

theorem mem_blk3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0_1).slice (win0_3.rect t)).set ↔ _
  rw [View.set_slice_whole, Rect.mem_set_unit]
  exact Iff.rfl

theorem cover3 (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  obtain ⟨t, -, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

/-- The column of squared row lengths after the stage. -/
theorem final3 (c : Dev nD) : (dat0 (F := Ideal) V c).arrAt 3 cfg0.N = projSqArr (xArr V c) (wArr V c) :=
  (dat0 (F := Ideal) V c).arrAt_eq_of_cover 3 _ (fun t _ => flushed3_eq V c t) cover3

end Cert.KernelIdeal.EmbedValue

end
-- ==== Proof.DistPay.lean ====
/-
  The second stage's body at an index.  At (r, s) of the output block it stores
      0 - ((u[r, 0] + v[0, s]) - 2 · Σ_d e[r, d] · c[s, d]),
  `e` the loaded block of projected rows, `c` the loaded block of centroids (contracted along their common
  last axis, so no transpose is formed), `u` the loaded column of squared row lengths and `v` the loaded row
  of squared centroid lengths; the identity shape casts and the change of float format leave values as they are.
-/
import proofs.«181549_j7490422964419_1_alg».proof.Proof.Gen.KernelIdeal.Skeleton
import proofs.«181549_j7490422964419_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.DistValue

open Cert.KernelIdeal Cert.KernelIdeal.Gen Idealize.ShloMosaic Idealize.ShloMosaic.ValueIdx Cert.LibKeepdims

/-! ## The product's operand indices: rows of the left operand, rows of the right -/

theorem lhs_nt_0 (i : S1024x1024.Idx) (q : dot_S1024x768_S1024x768_S1024x1024_1_1_0_0_n_n.contr.Idx) :
    (dot_S1024x768_S1024x768_S1024x1024_1_1_0_0_n_n.lhsIdx i q 0).val = (i 0).val := by
  unfold DotDims.lhsIdx
  rw [dif_neg (show ¬(0 : Fin S1024x768.rank) ∈ dot_S1024x768_S1024x768_S1024x1024_1_1_0_0_n_n.lhsBatch by decide), dif_pos (show (0 : Fin S1024x768.rank) ∈ dot_S1024x768_S1024x768_S1024x1024_1_1_0_0_n_n.lhsNonContracting by decide)]
  rfl
theorem lhs_nt_1 (i : S1024x1024.Idx) (q : dot_S1024x768_S1024x768_S1024x1024_1_1_0_0_n_n.contr.Idx) :
    (dot_S1024x768_S1024x768_S1024x1024_1_1_0_0_n_n.lhsIdx i q 1).val = (q ⟨0, by decide⟩).val :=
  dot_S1024x768_S1024x768_S1024x1024_1_1_0_0_n_n.lhsIdx_val_of_single rfl i q
theorem rhs_nt_0 (i : S1024x1024.Idx) (q : dot_S1024x768_S1024x768_S1024x1024_1_1_0_0_n_n.contr.Idx) :
    (dot_S1024x768_S1024x768_S1024x1024_1_1_0_0_n_n.rhsIdx i q 0).val = (i 1).val := by
  unfold DotDims.rhsIdx
  rw [dif_neg (show ¬(0 : Fin S1024x768.rank) ∈ dot_S1024x768_S1024x768_S1024x1024_1_1_0_0_n_n.rhsBatch by decide), dif_pos (show (0 : Fin S1024x768.rank) ∈ dot_S1024x768_S1024x768_S1024x1024_1_1_0_0_n_n.rhsNonContracting by decide)]
  rfl
theorem rhs_nt_1 (i : S1024x1024.Idx) (q : dot_S1024x768_S1024x768_S1024x1024_1_1_0_0_n_n.contr.Idx) :
    (dot_S1024x768_S1024x768_S1024x1024_1_1_0_0_n_n.rhsIdx i q 1).val = (q ⟨0, by decide⟩).val :=
  dot_S1024x768_S1024x768_S1024x1024_1_1_0_0_n_n.rhsIdx_val_of_single rfl i q

/-- The block product into the zero accumulator, at (r, s): row `r` of the left block against row `s` of the right. -/
theorem cross_apply (a : FVec Ideal S1024x768 .bf16) (b : FVec Ideal S1024x768 .bf16) (r s : Fin 1024) :
    matmul (F := Ideal) dot_S1024x768_S1024x768_S1024x1024_1_1_0_0_n_n none a b (constant (F := Ideal) S1024x1024 .f32 0x00000000#32) (ix2 r s)
      = ∑ d : Fin 768, a (ix2 r d) * b (ix2 s d) := by
  simp only [matmul]
  rw [Ideal.matmul_constant_zero_apply, ← Equiv.sum_comp (contrEquiv1 dot_S1024x768_S1024x768_S1024x1024_1_1_0_0_n_n 768 rfl rfl).symm]
  refine Finset.sum_congr rfl fun k _ => ?_
  have hk := contrEquiv1_symm_val dot_S1024x768_S1024x768_S1024x1024_1_1_0_0_n_n 768 rfl rfl k
  have el : dot_S1024x768_S1024x768_S1024x1024_1_1_0_0_n_n.lhsIdx (ix2 r s) ((contrEquiv1 dot_S1024x768_S1024x768_S1024x1024_1_1_0_0_n_n 768 rfl rfl).symm k) = ix2 r k := funext fun a => Fin.ext (by
    match a with
    | ⟨0, _⟩ => exact lhs_nt_0 _ _
    | ⟨1, _⟩ => exact (lhs_nt_1 _ _).trans hk)
  have er : dot_S1024x768_S1024x768_S1024x1024_1_1_0_0_n_n.rhsIdx (ix2 r s) ((contrEquiv1 dot_S1024x768_S1024x768_S1024x1024_1_1_0_0_n_n 768 rfl rfl).symm k) = ix2 s k := funext fun a => Fin.ext (by
    match a with
    | ⟨0, _⟩ => exact rhs_nt_0 _ _
    | ⟨1, _⟩ => exact (rhs_nt_1 _ _).trans hk)
  rw [el, er]

/-- What the body stores at (r, s) of its output block, from its four loaded blocks. -/
theorem pay_apply (e : FVec Ideal S1024x768 .bf16) (cb : FVec Ideal S1024x768 .f32) (u : FVec Ideal S1024x1 .f32)
    (v : FVec Ideal S1x1024 .f32) (r s : Fin 1024) :
    k1_pay1 (F := Ideal) e cb u v (ix2 r s)
      = Ideal.ofBits .f32 0x00000000#32
        - ((u (ix2 r (0 : Fin 1)) + v (ix2 (0 : Fin 1) s)) - Ideal.ofBits .f32 0x40000000#32 * ∑ d : Fin 768, e (ix2 r d) * cb (ix2 s d)) := by
  unfold k1_pay1
  rw [shapeCast_self, shapeCast_self, shapeCast_self]
  show Ideal.ofBits .f32 0x00000000#32
      - ((broadcastTo S1024x1024 u broadcasts_S1024x1_S1024x1024 (ix2 r s) + broadcastTo S1024x1024 v broadcasts_S1x1024_S1024x1024 (ix2 r s))
        - Ideal.ofBits .f32 0x40000000#32 * matmul (F := Ideal) dot_S1024x768_S1024x768_S1024x1024_1_1_0_0_n_n none e (truncf .bf16 cb bitsLt_bf16_f32) (constant (F := Ideal) S1024x1024 .f32 0x00000000#32) (ix2 r s)) = _
  rw [broadcastTo_a1_ab_apply, broadcastTo_1b_ab_apply, cross_apply]
  rfl

end Cert.KernelIdeal.DistValue

end
-- ==== Proof.DistArr.lean ====
/-
  The second stage's output array as one function of the arrays the stage finds.  Grid point (a, b) stores the
  1024 × 1024 block with corner (1024·a, 1024·b); it reads rows 1024·a … of the projection and of the column
  of squared row lengths, and rows 1024·b … of the centroids and columns 1024·b … of the row of squared
  centroid lengths.  So what it stores at (r, s) of its block is the distance expression at
  (1024·a + r, 1024·b + s) of the whole arrays, and the 8 × 16 blocks tile the 8192 × 16384 output.
-/
import proofs.«181549_j7490422964419_1_alg».proof.Proof.Gen.KernelIdeal.Frame
import proofs.«181549_j7490422964419_1_alg».proof.Proof.DistPay
import proofs.«181549_j7490422964419_1_alg».proof.Proof.Spec

set_option maxRecDepth 16384

noncomputable section

namespace Cert.KernelIdeal.DistValue

open Cert.KernelIdeal Cert.KernelIdeal.Gen Idealize.ShloMosaic Idealize.ShloMosaic.TcCoe Idealize.ShloMosaic.ValueIdx
open Idealize.SL.Sem Cert.Centroid
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The four arrays the stage reads, as it finds them, each at its literal type. -/
abbrev eArr (c : Dev nD) : FVec Ideal S8192x768 .bf16 := V c main_v0_0
abbrev cArr (c : Dev nD) : FVec Ideal S16384x768 .f32 := V c main_arg2
abbrev uArr (c : Dev nD) : FVec Ideal S8192x1 .f32 := V c main_v0_1
abbrev vArr (c : Dev nD) : FVec Ideal S1x16384 .f32 := V c main_v3

/-- The printed index maps, decided over the 128 grid points: which block of each input goes with the output's block. -/
theorem idx_facts : ∀ t : Fin cfg1.N,
    win1_0.index t (0 : Fin 2) = win1_4.index t (0 : Fin 2) ∧ win1_0.index t (1 : Fin 2) = 0
    ∧ win1_1.index t (0 : Fin 2) = win1_4.index t (1 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = win1_4.index t (1 : Fin 2)
    ∧ win1_4.index t (0 : Fin 2) ≤ 7 ∧ win1_4.index t (1 : Fin 2) ≤ 15 :=
  (by decide +kernel : ∀ t : Fin grid1.N, _)

/-- Every block of the output is some grid point's. -/
theorem idx_onto : ∀ (q0 : Fin 8) (q1 : Fin 16), ∃ t : Fin cfg1.N, win1_4.index t = ![q0.val, q1.val] :=
  (by decide +kernel : ∀ (q0 : Fin 8) (q1 : Fin 16), ∃ t : Fin grid1.N, win1_4.index t = ![q0.val, q1.val])

/-- What grid point `t` writes back is block `t` of the distance expression over the whole arrays. -/
theorem flushed_eq (c : Dev nD) (t : Fin cfg1.N) :
    (dat1 (F := Ideal) V c).flushed 4 t
      = ((cfg1.win 4).blk t).view.read (Elt Ideal) (distOf (eArr V c) (cArr V c) (uArr V c) (vArr V c)) := by
  show (cfg1.win 4).cut (grid1.coords t) ((dat1 (F := Ideal) V c).after 4 t) = _
  rw [after1_4]
  unfold out1_4
  rw [View.canon_unit_zero hz]
  simp only [View.ld_unit_zero (S := S1024x768) hz, View.ld_unit_zero (S := S1024x1) hz, View.ld_unit_zero (S := S1x1024) hz]
  obtain ⟨e0, e1, e2, e3, e4, e5, e6, e7, b0, b1⟩ := idx_facts t
  funext j
  obtain ⟨r, s, rfl⟩ : ∃ (r s : Fin 1024), j = ix2 r s := ⟨j 0, j 1, eq_ix2 j⟩
  have hr : r.val < 1024 := r.isLt
  have hs : s.val < 1024 := s.isLt
  have hP : ((cfg1.win 4).blk t).view.emb (ix2 r s)
      = ix2 (⟨win1_4.index t (0 : Fin 2) * 1024 + r.val, by omega⟩ : Fin 8192) (⟨win1_4.index t (1 : Fin 2) * 1024 + s.val, by omega⟩ : Fin 16384) :=
    funext fun a => Fin.ext (by
      match a with
      | ⟨0, _⟩ => show win1_4.index t (0 : Fin 2) * 1024 + 1 * r.val = win1_4.index t (0 : Fin 2) * 1024 + r.val; omega
      | ⟨1, _⟩ => show win1_4.index t (1 : Fin 2) * 1024 + 1 * s.val = win1_4.index t (1 : Fin 2) * 1024 + s.val; omega)
  have h0 : ∀ d : Fin 768, iblk1 V c 0 t (ix2 r d)
      = eArr V c (ix2 (⟨win1_4.index t (0 : Fin 2) * 1024 + r.val, by omega⟩ : Fin 8192) d) := fun d => by
    show V c main_v0_0 (((cfg1.win 0).blk t).view.emb (ix2 r d)) = V c main_v0_0 _
    refine congrArg (V c main_v0_0) (funext fun a => Fin.ext ?_)
    match a with
    | ⟨0, _⟩ => show win1_0.index t (0 : Fin 2) * 1024 + 1 * r.val = win1_4.index t (0 : Fin 2) * 1024 + r.val; omega
    | ⟨1, _⟩ => show win1_0.index t (1 : Fin 2) * 768 + 1 * d.val = d.val; omega
  have h1 : ∀ d : Fin 768, iblk1 V c 1 t (ix2 s d)
      = cArr V c (ix2 (⟨win1_4.index t (1 : Fin 2) * 1024 + s.val, by omega⟩ : Fin 16384) d) := fun d => by
    show V c main_arg2 (((cfg1.win 1).blk t).view.emb (ix2 s d)) = V c main_arg2 _
    refine congrArg (V c main_arg2) (funext fun a => Fin.ext ?_)
    match a with
    | ⟨0, _⟩ => show win1_1.index t (0 : Fin 2) * 1024 + 1 * s.val = win1_4.index t (1 : Fin 2) * 1024 + s.val; omega
    | ⟨1, _⟩ => show win1_1.index t (1 : Fin 2) * 768 + 1 * d.val = d.val; omega
  have h2 : iblk1 V c 2 t (ix2 r (0 : Fin 1))
      = uArr V c (ix2 (⟨win1_4.index t (0 : Fin 2) * 1024 + r.val, by omega⟩ : Fin 8192) (0 : Fin 1)) := by
    show V c main_v0_1 (((cfg1.win 2).blk t).view.emb (ix2 r (0 : Fin 1))) = V c main_v0_1 _
    refine congrArg (V c main_v0_1) (funext fun a => Fin.ext ?_)
    match a with
    | ⟨0, _⟩ => show win1_2.index t (0 : Fin 2) * 1024 + 1 * r.val = win1_4.index t (0 : Fin 2) * 1024 + r.val; omega
    | ⟨1, _⟩ => show win1_2.index t (1 : Fin 2) * 1 + 1 * 0 = 0; omega
  have h3 : iblk1 V c 3 t (ix2 (0 : Fin 1) s)
      = vArr V c (ix2 (0 : Fin 1) (⟨win1_4.index t (1 : Fin 2) * 1024 + s.val, by omega⟩ : Fin 16384)) := by
    show V c main_v3 (((cfg1.win 3).blk t).view.emb (ix2 (0 : Fin 1) s)) = V c main_v3 _
    refine congrArg (V c main_v3) (funext fun a => Fin.ext ?_)
    match a with
    | ⟨0, _⟩ => show win1_3.index t (0 : Fin 2) * 1 + 1 * 0 = 0; omega
    | ⟨1, _⟩ => show win1_3.index t (1 : Fin 2) * 1024 + 1 * s.val = win1_4.index t (1 : Fin 2) * 1024 + s.val; omega
  show _ = distOf (eArr V c) (cArr V c) (uArr V c) (vArr V c) (((cfg1.win 4).blk t).view.emb (ix2 r s))
  rw [hP]
  refine (pay_apply (iblk1 V c 0 t) (iblk1 V c 1 t) (iblk1 V c 2 t) (iblk1 V c 3 t) r s).trans ?_
  rw [h2, h3]
  simp only [h0, h1]
  rfl

/-- An index of the output is in point `t`'s block iff each coordinate is in the block's range on its axis. -/
theorem mem_blk (t : Fin cfg1.N) (i : S8192x16384.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v4).slice (win1_4.rect t)).set ↔ _
  rw [View.set_slice_whole, Rect.mem_set_unit]
  exact Iff.rfl

/-- The blocks tile the output: index (i, j) lies in the block of the point with coordinates (i / 1024, j / 1024). -/
theorem cover (i : S8192x16384.Idx) : ∃ t : Fin cfg1.N, (cfg1.win 4).flush t = true ∧ i ∈ ((cfg1.win 4).blk t).view.set := by
  have hi0 : (i 0).val < 8192 := (i 0).isLt
  have hi1 : (i 1).val < 16384 := (i 1).isLt
  obtain ⟨t, ht⟩ := idx_onto ⟨(i 0).val / 1024, by omega⟩ ⟨(i 1).val / 1024, by omega⟩
  have q0 : win1_4.index t (0 : Fin 2) = (i 0).val / 1024 := congrFun ht 0
  have q1 : win1_4.index t (1 : Fin 2) = (i 1).val / 1024 := congrFun ht 1
  refine ⟨t, flush1_4 t, ?_⟩
  rw [mem_blk]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 1024 ≤ (i 1).val ∧ (i 1).val < win1_4.index t (1 : Fin 2) * 1024 + 1024; omega

/-- The output array after the stage: the distance expression over the arrays the stage found. -/
theorem final (c : Dev nD) :
    (dat1 (F := Ideal) V c).arrAt 4 cfg1.N = distOf (eArr V c) (cArr V c) (uArr V c) (vArr V c) :=
  (dat1 (F := Ideal) V c).arrAt_eq_of_cover 4 _ (fun t _ => flushed_eq V c t) cover

end Cert.KernelIdeal.DistValue

end
-- ==== Proof.KernelValue.lean ====
/-
  The kernel program's result as one function of its arguments.  The first stage leaves the projection
  `x · W` and the column of its rows' squared lengths; the host stretch between the stages leaves both alone
  and forms the row of the centroids' squared lengths (a sum over the last axis from zero, reshaped to one
  row); the second stage then finds exactly the arrays its distance expression is the negated squared
  distance of.
-/
import proofs.«181549_j7490422964419_1_alg».proof.Proof.Gen.KernelIdeal.Frame
import proofs.«181549_j7490422964419_1_alg».proof.Proof.KernelRun
import proofs.«181549_j7490422964419_1_alg».proof.Proof.EmbedArr
import proofs.«181549_j7490422964419_1_alg».proof.Proof.DistArr
import proofs.«181549_j7490422964419_1_alg».proof.Proof.Spec
import Idealize.ShloMosaic.Lib.StableHlo.Run
import Idealize.ShloMosaic.Lib.ValueLayout
import Idealize.ShloMosaic.PureOps.Ideal.Laws

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo Cert.Centroid

/-- The host's sum of squares over the last axis from the initial value zero, reshaped to one row, is the row
    of squared centroid lengths. -/
theorem cen_row (A : FVec Ideal S16384x768 .f32) :
    shapeCast S1x16384 (Host.reduceAdd (F := Ideal) (mulf A A) (constant (F := Ideal) S_ .f32 0x00000000#32)
        reducesTo_S16384x768_S16384_d1 h_S_) shapeCasts_S16384_S1x16384 = cenSqArr A := by
  funext p
  obtain ⟨u, j, rfl⟩ : ∃ (u : Fin 1) (j : Fin 16384), p = ix2 u j := ⟨p 0, p 1, eq_ix2 p⟩
  refine (shapeCast_a_1a_apply _ _ u j).trans ?_
  have hR : S16384x768.Reduces [1] S16384 := by decide
  simp only [Host.reduceAdd, Ideal.hostReduceAdd_def]
  rw [Ideal.hostReduceAdd_single reducesTo_S16384x768_S16384_d1 hR]
  show Ideal.ofBits .f32 0x00000000#32 + ∑ k : Fin 768, (mulf A A) (hR.lift (ix1 j) k) = ∑ d : Fin 768, A (ix2 j d) * A (ix2 j d)
  rw [Ideal.ofBits_zero_f32, zero_add]
  refine Finset.sum_congr rfl fun (k : Fin 768) _ => ?_
  have e : hR.lift (ix1 j) k = ix2 j k :=
    funext fun a => Fin.ext (by match a with | ⟨0, _⟩ => rfl | ⟨1, _⟩ => rfl)
  show A (hR.lift (ix1 j) k) * A (hR.lift (ix1 j) k) = _
  rw [e]

variable (m : (ℓ : Loc nD τ sig) → Buf (Elt Ideal) ℓ) (ρ : Dev nD → PrngReg)

/-! ## What the second stage finds -/

/-- The projection, as the first stage left it. -/
theorem entry_e (c : Dev nD) :
    DistValue.eArr (V2 m ρ) c = projArr (m ((c : Thread nD τ).loc main_arg0)) (m ((c : Thread nD τ).loc main_arg1)) := by
  have h1 : W2 m ρ c (Proc.devRef .tc main_v0_0) = W1 m ρ c (Proc.devRef .tc main_v0_0) := by
    show StableHlo.after (hostOps1 (F := Ideal)) (W1 m ρ c) (Proc.devRef .tc main_v0_0) = _
    after_results
  exact h1.trans ((W1_arr m ρ c 2).trans (EmbedValue.final2 (V0 m ρ) c))

/-- The column of squared row lengths, as the first stage left it. -/
theorem entry_u (c : Dev nD) :
    DistValue.uArr (V2 m ρ) c = projSqArr (m ((c : Thread nD τ).loc main_arg0)) (m ((c : Thread nD τ).loc main_arg1)) := by
  have h1 : W2 m ρ c (Proc.devRef .tc main_v0_1) = W1 m ρ c (Proc.devRef .tc main_v0_1) := by
    show StableHlo.after (hostOps1 (F := Ideal)) (W1 m ρ c) (Proc.devRef .tc main_v0_1) = _
    after_results
  exact h1.trans ((W1_arr m ρ c 3).trans (EmbedValue.final3 (V0 m ρ) c))

/-- The centroids, untouched since the launch. -/
theorem entry_c (c : Dev nD) : DistValue.cArr (V2 m ρ) c = m ((c : Thread nD τ).loc main_arg2) := by
  have h1 : W2 m ρ c (Proc.devRef .tc main_arg2) = W1 m ρ c (Proc.devRef .tc main_arg2) := by
    show StableHlo.after (hostOps1 (F := Ideal)) (W1 m ρ c) (Proc.devRef .tc main_arg2) = _
    after_results
  exact h1.trans (W1_of_ne m ρ c main_arg2 (by decide))

/-- The row of squared centroid lengths, formed by the host stretch. -/
theorem entry_v (c : Dev nD) : DistValue.vArr (V2 m ρ) c = cenSqArr (m ((c : Thread nD τ).loc main_arg2)) := by
  have h1 : W2 m ρ c (Proc.devRef .tc main_v3)
      = shapeCast S1x16384 (Host.reduceAdd (F := Ideal) (mulf (W1 m ρ c (Proc.devRef .tc main_arg2)) (W1 m ρ c (Proc.devRef .tc main_arg2)))
          (constant (F := Ideal) S_ .f32 0x00000000#32) reducesTo_S16384x768_S16384_d1 h_S_) shapeCasts_S16384_S1x16384 := by
    show StableHlo.after (hostOps1 (F := Ideal)) (W1 m ρ c) (Proc.devRef .tc main_v3) = _
    after_results
    rfl
  exact h1.trans ((cen_row _).trans (congrArg cenSqArr (W1_of_ne m ρ c main_arg2 (by decide))))

/-! ## The result -/

/-- The result array after the run is the negated squared distance of the launch arguments. -/
theorem result (c : Dev nD) :
    W3 m ρ c (Proc.devRef .tc main_v4)
      = negDist (m ((c : Thread nD τ).loc main_arg0)) (m ((c : Thread nD τ).loc main_arg1)) (m ((c : Thread nD τ).loc main_arg2)) := by
  have key : ∀ E C U T, DistValue.eArr (V2 m ρ) c = E → DistValue.cArr (V2 m ρ) c = C → DistValue.uArr (V2 m ρ) c = U
      → DistValue.vArr (V2 m ρ) c = T
      → distOf (DistValue.eArr (V2 m ρ) c) (DistValue.cArr (V2 m ρ) c) (DistValue.uArr (V2 m ρ) c) (DistValue.vArr (V2 m ρ) c) = distOf E C U T := by
    intro E C U T h1 h2 h3 h4
    subst h1 h2 h3 h4
    rfl
  exact (W3_arr m ρ c 4).trans ((DistValue.final (V2 m ρ) c).trans
    ((key _ _ _ _ (entry_e m ρ c) (entry_c m ρ c) (entry_u m ρ c) (entry_v m ρ c)).trans (distOf_spec _ _ _)))

/-- Every weakly fair execution of the kernel program terminates, nothing faulting, with the result array at the
    negated squared distance of its arguments and the arguments unchanged. -/
theorem run : θ_run defs (onTc (τ := τ) (main (F := Ideal))) ⟨m, fun _ => 0, ρ⟩ (fun r => ∀ c : Dev nD,
      r.2.mem ((c.tc : Thread nD τ).loc main_v4)
        = negDist (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result m ρ c), (h c).2⟩) (Named.run_named m ρ)

end Cert.KernelIdeal.Whole

end
-- ==== Proof.Ref.lean ====
/-
  The reference's result, read one operation at a time at an index (i, j), is the negated squared distance of
  the specification: its two host sums carry the initial value zero, its cross term contracts the projection
  with the transposed centroids (entry (d, j) of the transpose is entry (j, d)), and its final negation is the
  extended reals' own.
-/
import proofs.«181549_j7490422964419_1_alg».proof.Proof.Gen.ReferenceIdeal.Read
import proofs.«181549_j7490422964419_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Centroid

/-- Row `i` of the projection is read from row `i` of `x` … -/
theorem lrow (p : Fin 8192) (q : Fin 16384) (k : Fin 768) (k' : Fin 1024) :
    lidx_main_v0 (idx_main_v2 (idx_main_v3 (idx_main_v9 (ix2 p q))) k) k' = ix2 p k' :=
  funext fun a => Fin.ext (by match a with | ⟨0, _⟩ => rfl | ⟨1, _⟩ => rfl)

/-- … and column `d` of `W`, in the row's squared length. -/
theorem rrow (p : Fin 8192) (q : Fin 16384) (k : Fin 768) (k' : Fin 1024) :
    ridx_main_v0 (idx_main_v2 (idx_main_v3 (idx_main_v9 (ix2 p q))) k) k' = ix2 k' k :=
  funext fun a => Fin.ext (by match a with | ⟨0, _⟩ => rfl | ⟨1, _⟩ => rfl)

/-- Centroid `j`'s squared length sums row `j` of the centroids. -/
theorem crow (p : Fin 8192) (q : Fin 16384) (k : Fin 768) :
    idx_main_v5 (idx_main_v8 (idx_main_v10 (ix2 p q))) k = ix2 q k :=
  funext fun a => Fin.ext (by match a with | ⟨0, _⟩ => rfl | ⟨1, _⟩ => rfl)

/-- In the cross term the projection is read at row `i` … -/
theorem lcross (p : Fin 8192) (q : Fin 16384) (k : Fin 768) (k' : Fin 1024) :
    lidx_main_v0 (lidx_main_v7 (ix2 p q) k) k' = ix2 p k' :=
  funext fun a => Fin.ext (by match a with | ⟨0, _⟩ => rfl | ⟨1, _⟩ => rfl)

theorem rcross (p : Fin 8192) (q : Fin 16384) (k : Fin 768) (k' : Fin 1024) :
    ridx_main_v0 (lidx_main_v7 (ix2 p q) k) k' = ix2 k' k :=
  funext fun a => Fin.ext (by match a with | ⟨0, _⟩ => rfl | ⟨1, _⟩ => rfl)

/-- … and the transposed centroids at (d, j), which is the centroids at (j, d). -/
theorem ccross (p : Fin 8192) (q : Fin 16384) (k : Fin 768) :
    idx_main_v6 (ridx_main_v7 (ix2 p q) k) = ix2 q k :=
  funext fun a => Fin.ext (by match a with | ⟨0, _⟩ => rfl | ⟨1, _⟩ => rfl)

/-- The reference's last stage is the specification's array. -/
theorem ref_eq (x0 : (⟨S8192x1024, .f32⟩ : BufTy).Contents (Elt Ideal)) (x1 : (⟨S1024x768, .f32⟩ : BufTy).Contents (Elt Ideal))
    (x2 : (⟨S16384x768, .f32⟩ : BufTy).Contents (Elt Ideal)) :
    val_main_v15 (F := Ideal) x0 x1 x2 = negDist x0 x1 x2 := by
  funext i
  obtain ⟨p, q, rfl⟩ : ∃ (p : Fin 8192) (q : Fin 16384), i = ix2 p q := ⟨i 0, i 1, eq_ix2 i⟩
  rw [val_main_v15_apply, val_main_v14_apply, val_main_v11_apply, val_main_v13_apply, val_main_v9_apply,
    val_main_v3_apply, val_main_v2_apply, val_main_v10_apply, val_main_v8_apply, val_main_v5_apply,
    val_main_v12_apply, val_main_cst_1_apply, val_main_v7_apply]
  simp only [val_main_v1_apply, val_main_v4_apply, val_main_v0_apply, val_main_v6_apply, val_main_cst_apply,
    val_main_cst_0_apply, lrow, rrow, crow, lcross, rcross, ccross,
    Ideal.mulf_def, Ideal.addf_def, Ideal.subf_def, Ideal.hostNegf_def, Ideal.negf_def, Ideal.ofBits_def,
    Ideal.ofBits_zero_f32, zero_add]
  rfl

end Cert.ReferenceIdeal.RefValue

end
-- ==== Proof.lean ====
/-
  Negated squared distances from projected points to centroids.  With `e = x · W` (8192 × 768), the kernel and
  the reference both compute, at (i, j),
        -((|e_i|² + |c_j|²) - 2 · ⟨e_i, c_j⟩).
  The kernel does it in two grid stages: the first forms `e` block of rows by block of rows together with the
  column of the rows' squared lengths; between the stages the centroids' squared lengths are summed and laid
  out as one row; the second forms each 1024 × 1024 block of the result from a block of rows of `e` and a block
  of centroids, contracting their common last axis.  The reference forms the same four quantities with whole
  arrays and a transpose.  Read over the extended reals, where a change of float format is the identity and a
  matrix product into a zero accumulator is the plain sum of products, the two are the same expression tree:
  the only spellings that differ are the kernel's `0 - y` against the reference's `-y` and a host sum's initial
  zero, and `0 + s = s`, `0 - y = -y` hold for every extended real.  No distributive or cancellation law is
  used, so the finiteness of the inputs is never opened.

  Both kernel programs' frames are the generated ones; the reference's frame is its generated run with the
  result dropped; no rewrite was applied when the kernel was idealized, so that conjunct is `True`.
-/
import proofs.«181549_j7490422964419_1_alg».proof.Defs
import proofs.«181549_j7490422964419_1_alg».proof.Proof.Gen.Kernel
import proofs.«181549_j7490422964419_1_alg».proof.Proof.Gen.Kernel.Skeleton
import proofs.«181549_j7490422964419_1_alg».proof.Proof.Gen.Kernel.Launch
import proofs.«181549_j7490422964419_1_alg».proof.Proof.Gen.Kernel.Points
import proofs.«181549_j7490422964419_1_alg».proof.Proof.Gen.Kernel.Frame
import proofs.«181549_j7490422964419_1_alg».proof.Proof.Gen.KernelIdeal
import proofs.«181549_j7490422964419_1_alg».proof.Proof.Gen.KernelIdeal.Skeleton
import proofs.«181549_j7490422964419_1_alg».proof.Proof.Gen.KernelIdeal.Launch
import proofs.«181549_j7490422964419_1_alg».proof.Proof.Gen.KernelIdeal.Points
import proofs.«181549_j7490422964419_1_alg».proof.Proof.Gen.KernelIdeal.Frame
import proofs.«181549_j7490422964419_1_alg».proof.Proof.Gen.ReferenceIdeal
import proofs.«181549_j7490422964419_1_alg».proof.Proof.Gen.ReferenceIdeal.Run
import proofs.«181549_j7490422964419_1_alg».proof.Proof.Gen.ReferenceIdeal.Read
import proofs.«181549_j7490422964419_1_alg».proof.Proof.Gen.Pre_finite_inputs
import proofs.«181549_j7490422964419_1_alg».proof.Proof.KernelValue
import proofs.«181549_j7490422964419_1_alg».proof.Proof.Ref
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the three arguments both programs end with the negated squared distances of those
    arguments: the kernel by its two stages read back, the reference by its operations read one at a time. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
